-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008 : Shape := ⟨1, ![11008]⟩
abbrev S16x4096 : Shape := ⟨2, ![16, 4096]⟩
abbrev S11008x16 : Shape := ⟨2, ![11008, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008 : S_.BroadcastsInDim S11008 (![] : Fin 0 → Fin S11008.rank)
  reducesTo_S11008_S_d0 : S11008.ReducesTo [0] S_
  bcast_S_S16x4096 : S_.BroadcastsInDim S16x4096 (![] : Fin 0 → Fin S16x4096.rank)
  reducesTo_S16x4096_S_d0_1 : S16x4096.ReducesTo [0, 1] S_
  bcast_S_S11008x16 : S_.BroadcastsInDim S11008x16 (![] : Fin 0 → Fin S11008x16.rank)
  reducesTo_S11008x16_S_d0_1 : S11008x16.ReducesTo [0, 1] S_

variable [Facts]

def fn_part1 {F : FTy → Type} [FloatOps F] (main_v13 : IVec S_ 1) (main_v16 : IVec S11008x16 1) : IVec S_ 1 :=
  let main_c_5 : IVec S_ 1 := constantI S_ 1 1#1
  let main_v17 : IVec S_ 1 := (fun x v => Host.reduce IntOp.andi x v reducesTo_S11008x16_S_d0_1 h_S_) main_v16 main_c_5
  let main_v18 : IVec S_ 1 := andi main_v13 main_v17
  main_v18

def fn {F : FTy → Type} [FloatOps F] (main_arg0 : FVec F S4x2048x4096 .f32) (main_arg1 : IVec S11008x4096 32) (main_arg2 : FVec F S11008 .f32) (main_arg3 : FVec F S16x4096 .f32) (main_arg4 : FVec F S11008x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S16x4096 .f32 := Host.absf main_arg3
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S11008x16 .f32 := Host.absf main_arg4
  let main_cst_4 : FVec F S_ .f32 := constant S_ .f32 0x7F800000#32
  let main_v15 : FVec F S11008x16 .f32 := broadcastInDim S11008x16 ![] bcast_S_S11008x16 main_cst_4
  let main_v16 : IVec S11008x16 1 := cmpf .olt main_v14 main_v15
  fn_part1 (F := F) main_v13 main_v16
-- ==== Kernel.lean ====
abbrev S4x2048x4096 : Shape := ⟨3, ![4, 2048, 4096]⟩
abbrev S11008x4096 : Shape := ⟨2, ![11008, 4096]⟩
abbrev S11008 : Shape := ⟨1, ![11008]⟩
abbrev S16x4096 : Shape := ⟨2, ![16, 4096]⟩
abbrev S11008x16 : Shape := ⟨2, ![11008, 16]⟩
abbrev S8192x4096 : Shape := ⟨2, ![8192, 4096]⟩
abbrev S_ : Shape := ⟨0, ![]⟩
abbrev S11264x4096 : Shape := ⟨2, ![11264, 4096]⟩
abbrev S11264 : Shape := ⟨1, ![11264]⟩
abbrev S1x11264 : Shape := ⟨2, ![1, 11264]⟩
abbrev S11264x16 : Shape := ⟨2, ![11264, 16]⟩
abbrev S8192x11264 : Shape := ⟨2, ![8192, 11264]⟩
abbrev S1024x1024 : Shape := ⟨2, ![1024, 1024]⟩
abbrev S512x1024 : Shape := ⟨2, ![512, 1024]⟩
abbrev S1x512 : Shape := ⟨2, ![1, 512]⟩
abbrev S16x1024 : Shape := ⟨2, ![16, 1024]⟩
abbrev S512x16 : Shape := ⟨2, ![512, 16]⟩
abbrev S1024x512 : Shape := ⟨2, ![1024, 512]⟩
abbrev S1024x16 : Shape := ⟨2, ![1024, 16]⟩
abbrev S16x512 : Shape := ⟨2, ![16, 512]⟩
abbrev S8192x11008 : Shape := ⟨2, ![8192, 11008]⟩
abbrev S4x2048x11008 : Shape := ⟨3, ![4, 2048, 11008]⟩

abbrev nBuf : Space → Nat
  | .hbm => 19
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S16x4096, .f32⟩
  | .hbm, ⟨4, _⟩ => ⟨S11008x16, .f32⟩
  | .hbm, ⟨5, _⟩ => ⟨S8192x4096, .f32⟩
  | .hbm, ⟨6, _⟩ => ⟨S_, .i32⟩
  | .hbm, ⟨7, _⟩ => ⟨S_, .i32⟩
  | .hbm, ⟨8, _⟩ => ⟨S11264x4096, .i32⟩
  | .hbm, ⟨9, _⟩ => ⟨S_, .i32⟩
  | .hbm, ⟨10, _⟩ => ⟨S_, .f32⟩
  | .hbm, ⟨11, _⟩ => ⟨S11264, .f32⟩
  | .hbm, ⟨12, _⟩ => ⟨S1x11264, .f32⟩
  | .hbm, ⟨13, _⟩ => ⟨S_, .i32⟩
  | .hbm, ⟨14, _⟩ => ⟨S_, .f32⟩
  | .hbm, ⟨15, _⟩ => ⟨S11264x16, .f32⟩
  | .hbm, ⟨16, _⟩ => ⟨S8192x11264, .f32⟩
  | .hbm, ⟨17, _⟩ => ⟨S8192x11008, .f32⟩
  | .hbm, ⟨18, _⟩ => ⟨S4x2048x11008, .f32⟩
  | .local _ .vmem, ⟨0, _⟩ => ⟨S1024x1024, .f32⟩
  | .local _ .vmem, ⟨1, _⟩ => ⟨S1024x1024, .f32⟩
  | .local _ .vmem, ⟨2, _⟩ => ⟨S512x1024, .i32⟩
  | .local _ .vmem, ⟨3, _⟩ => ⟨S512x1024, .i32⟩
  | .local _ .vmem, ⟨4, _⟩ => ⟨S1x512, .f32⟩
  | .local _ .vmem, ⟨5, _⟩ => ⟨S1x512, .f32⟩
  | .local _ .vmem, ⟨6, _⟩ => ⟨S16x1024, .f32⟩
  | .local _ .vmem, ⟨7, _⟩ => ⟨S16x1024, .f32⟩
  | .local _ .vmem, ⟨8, _⟩ => ⟨S512x16, .f32⟩
  | .local _ .vmem, ⟨9, _⟩ => ⟨S512x16, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x16, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_call2_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 22, 4], ![false, false, false]⟩

def k0_cond2 (i : grid0.Coords) : BitVec 1 :=
  let arg2 : BitVec 32 := BitVec.ofNat 32 (i 2).val
  let c3_i32 : BitVec 32 := 3#32
  let v26 : BitVec 1 := Scalar.cmpi .eq arg2 c3_i32
  let v27 : BitVec 32 := Scalar.extui v26
  let c0_i32_15 : BitVec 32 := 0#32
  let v28 : BitVec 1 := Scalar.cmpi .ne v27 c0_i32_15
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S512x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  pads_S11008x4096_S11264x4096_02560_000 : S11008x4096.Pads (![0, 0] : Fin 2 → Nat) ![256, 0] ![0, 0] S11264x4096
  h_S_ : 0 < S_.numel
  pads_S11008_S11264_02560 : S11008.Pads (![0] : Fin 1 → Nat) ![256] ![0] S11264
  shapeCasts_S11264_S1x11264 : S11264.ShapeCasts S1x11264
  pads_S11008x16_S11264x16_02560_000 : S11008x16.Pads (![0, 0] : Fin 2 → Nat) ![256, 0] ![0, 0] S11264x16
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S16x1024_S16x1024_0_0 : ∀ a, (![0, 0] : Fin 2 → Nat) a + S16x1024.size a ≤ S16x1024.size a
  h_S16x1024 : 0 < S16x1024.numel
  transposes_S512x1024_p1_0_S1024x512 : S512x1024.Transposes [1, 0] S1024x512
  transposes_S16x1024_p1_0_S1024x16 : S16x1024.Transposes [1, 0] S1024x16
  inb_S512x16_S512x16_0_0 : ∀ a, (![0, 0] : Fin 2 → Nat) a + S512x16.size a ≤ S512x16.size a
  h_S512x16 : 0 < S512x16.numel
  shapeCasts_S512x16_S512x16 : S512x16.ShapeCasts S512x16
  transposes_S512x16_p1_0_S16x512 : S512x16.Transposes [1, 0] S16x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  slices_S8192x11264_S8192x11008_0_0 : S8192x11264.Slices ![0, 0] S8192x11008
  shapeCasts_S8192x11008_S4x2048x11008 : S8192x11008.ShapeCasts S4x2048x11008
  dot_S1024x1024_S1024x512_S1024x512_1_0_0_1_n_n_wf : DotDims.WF S1024x1024 S1024x512 S1024x512 [1] [0] [0] [1] [] []
  dot_S1024x1024_S1024x16_S1024x16_1_0_0_1_n_n_wf : DotDims.WF S1024x1024 S1024x16 S1024x16 [1] [0] [0] [1] [] []
  dot_S1024x16_S16x512_S1024x512_1_0_0_1_n_n_wf : DotDims.WF S1024x16 S16x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S11264x4096.size a
  hwx0_1 : ∀ i : grid0.Coords, EltTy.bits .i32 = 32 ∨ (Rect.block (s := S11264x4096) S512x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x11264.size a
  hwx0_2 : ∀ i : grid0.Coords, EltTy.bits .f32 = 32 ∨ (Rect.block (s := S1x11264) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x4096.size a
  hwx0_3 : ∀ i : grid0.Coords, EltTy.bits .f32 = 32 ∨ (Rect.block (s := S16x4096) S16x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x16.size a ≤ S11264x16.size a
  hwx0_4 : ∀ i : grid0.Coords, EltTy.bits .f32 = 32 ∨ (Rect.block (s := S11264x16) S512x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S8192x11264.size a
  hwx0_5 : ∀ i : grid0.Coords, EltTy.bits .f32 = 32 ∨ (Rect.block (s := S8192x11264) S1024x512.size (cc0_transform_5 i) (hinb0_5 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf
def dot_S1024x16_S16x512_S1024x512_1_0_0_1_n_n : DotDims S1024x16 S16x512 S1024x512 where
  lhsContracting := [1]
  rhsContracting := [0]
  lhsNonContracting := [0]
  rhsNonContracting := [1]
  lhsBatch := []
  rhsBatch := []
  wf := dot_S1024x16_S16x512_S1024x512_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008 : Shape := ⟨1, ![11008]⟩
abbrev S16x4096 : Shape := ⟨2, ![16, 4096]⟩
abbrev S11008x16 : Shape := ⟨2, ![11008, 16]⟩
abbrev S4x2048x11008 : Shape := ⟨3, ![4, 2048, 11008]⟩
abbrev S1x1x11008 : Shape := ⟨3, ![1, 1, 11008]⟩
abbrev S4x2048x16 : Shape := ⟨3, ![4, 2048, 16]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S16x4096, .f32⟩
  | .hbm, ⟨4, _⟩ => ⟨S11008x16, .f32⟩
  | .hbm, ⟨5, _⟩ => ⟨S11008x4096, .f32⟩
  | .hbm, ⟨6, _⟩ => ⟨S4x2048x11008, .f32⟩
  | .hbm, ⟨7, _⟩ => ⟨S1x1x11008, .f32⟩
  | .hbm, ⟨8, _⟩ => ⟨S4x2048x11008, .f32⟩
  | .hbm, ⟨9, _⟩ => ⟨S4x2048x11008, .f32⟩
  | .hbm, ⟨10, _⟩ => ⟨S4x2048x16, .f32⟩
  | .hbm, ⟨11, _⟩ => ⟨S4x2048x11008, .f32⟩
  | .hbm, ⟨12, _⟩ => ⟨S_, .f32⟩
  | .hbm, ⟨13, _⟩ => ⟨S4x2048x11008, .f32⟩
  | .hbm, ⟨14, _⟩ => ⟨S4x2048x11008, .f32⟩
  | .hbm, ⟨15, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  bcast_S_S4x2048x11008 : S_.BroadcastsInDim S4x2048x11008 (![] : Fin 0 → Fin S4x2048x11008.rank)
  dot_S4x2048x4096_S11008x4096_S4x2048x11008_2_1_01_0_n_n_wf : DotDims.WF S4x2048x4096 S11008x4096 S4x2048x11008 [2] [1] [0, 1] [0] [] []
  dot_S4x2048x4096_S16x4096_S4x2048x16_2_1_01_0_n_n_wf : DotDims.WF S4x2048x4096 S16x4096 S4x2048x16 [2] [1] [0, 1] [0] [] []
  dot_S4x2048x16_S11008x16_S4x2048x11008_2_1_01_0_n_n_wf : DotDims.WF S4x2048x16 S11008x16 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S11008x16_S4x2048x11008_2_1_01_0_n_n : DotDims S4x2048x16 S11008x16 S4x2048x11008 where
  lhsContracting := [2]
  rhsContracting := [1]
  lhsNonContracting := [0, 1]
  rhsNonContracting := [0]
  lhsBatch := []
  rhsBatch := []
  wf := dot_S4x2048x16_S11008x16_S4x2048x11008_2_1_01_0_n_n_wf

class Facts : Prop extends Facts₀ where

variable [Facts]
-- ==== Proof.Steps.lean ====
/-
  What each kind of grid point leaves in the two accumulators and in the output tile, as values.

  A point whose contraction coordinate is 0 resets both accumulators to zero and then adds its tile products;
  a middle point adds its tile products to what the point before left; the last point (contraction coordinate 3)
  does the same and then writes the output tile from the two accumulators it has just updated. Each is one
  whole-tile store (after the reset: a second whole-tile store that covers the first), so the tile read back is
  the stored value, and a load that follows a whole-tile store reads that store's value.

  The output tile at a last point is therefore a fixed four-deep nesting of the accumulation step over the tiles
  of the four points (k = 0, 1, 2, 3) that share its row and column block: no induction over the grid is needed.
-/
import proofs.«178033_j33809982554585_1_alg».proof.Proof.Gen.KernelIdeal.Frame
import Idealize.ShloMosaic.Lib.Pipeline.Value
import Idealize.ShloMosaic.Lib.Tactic

noncomputable section

namespace Cert.KernelIdeal.Steps

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-! ## The three kinds of point -/

/-- First contraction step, main accumulator: the reset value, then one accumulation step over it. -/
theorem first_main (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S1x512 .f32) (harg5 : arg5.IsWhole) (arg6 : Memref sig .tc .vmem S16x1024 .f32) (harg6 : arg6.IsWhole) (arg7 : Memref sig .tc .vmem S512x16 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x16 .f32) (harg10 : arg10.IsWhole) (hc0 : cond0_0 i) (hc1 : ¬cond0_1 i) (x0 : Vec F S1024x1024 .f32) (x1 : Vec F S512x1024 .i32) (x2 : Vec F S1x512 .f32) (x3 : Vec F S16x1024 .f32) (x4 : Vec F S512x16 .f32) :
    sout0_A_0 c i arg3 harg3 arg4 harg4 arg5 harg5 arg6 harg6 arg7 harg7 arg8 harg8 arg9 harg9 arg10 harg10 hc0 hc1 x0 x1 x2 x3 x4 = k0_pay4 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x512) hz]
  simp only [View.readAt_eq_ld, harg3.read_unread, harg4.read_unread, harg5.read_unread, harg6.read_unread, harg7.read_unread, harg9.read_unread, harg10.read_unread, View.ld_unit_zero (S := S1024x1024) hz, View.ld_unit_zero (S := S512x1024) hz, View.ld_unit_zero (S := S16x1024) hz, View.ld_unit_zero (S := S1024x512) hz, View.ld_unit_zero (S := S1024x16) hz, View.ld_unit_zero (S := S512x16) hz, View.ld_unit_zero (S := S1x512) hz, View.readCov_unit_zero (S := S1024x512) _ hz, View.readCov_unit_zero (S := S1024x16) _ hz]

/-- First contraction step, low-rank accumulator. -/
theorem first_xa (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S1x512 .f32) (harg5 : arg5.IsWhole) (arg6 : Memref sig .tc .vmem S16x1024 .f32) (harg6 : arg6.IsWhole) (arg7 : Memref sig .tc .vmem S512x16 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x16 .f32) (harg10 : arg10.IsWhole) (hc0 : cond0_0 i) (hc1 : ¬cond0_1 i) (x0 : Vec F S1024x1024 .f32) (x1 : Vec F S512x1024 .i32) (x2 : Vec F S1x512 .f32) (x3 : Vec F S16x1024 .f32) (x4 : Vec F S512x16 .f32) :
    sout0_A_1 c i arg3 harg3 arg4 harg4 arg5 harg5 arg6 harg6 arg7 harg7 arg8 harg8 arg9 harg9 arg10 harg10 hc0 hc1 x0 x1 x2 x3 x4 = k0_pay5 x0 x3 (k0_pay2 (F := F)) := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x16) hz]
  simp only [View.readAt_eq_ld, harg3.read_unread, harg4.read_unread, harg5.read_unread, harg6.read_unread, harg7.read_unread, harg9.read_unread, harg10.read_unread, View.ld_unit_zero (S := S1024x1024) hz, View.ld_unit_zero (S := S512x1024) hz, View.ld_unit_zero (S := S16x1024) hz, View.ld_unit_zero (S := S1024x512) hz, View.ld_unit_zero (S := S1024x16) hz, View.ld_unit_zero (S := S512x16) hz, View.ld_unit_zero (S := S1x512) hz, View.readCov_unit_zero (S := S1024x512) _ hz, View.readCov_unit_zero (S := S1024x16) _ hz]

/-- A middle contraction step, main accumulator: one accumulation step over what the point before left. -/
theorem middle_main (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S1x512 .f32) (harg5 : arg5.IsWhole) (arg6 : Memref sig .tc .vmem S16x1024 .f32) (harg6 : arg6.IsWhole) (arg7 : Memref sig .tc .vmem S512x16 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x16 .f32) (harg10 : arg10.IsWhole) (hc0 : ¬cond0_0 i) (hc1 : ¬cond0_1 i) (x0 : Vec F S1024x1024 .f32) (x1 : Vec F S512x1024 .i32) (x2 : Vec F S1x512 .f32) (x3 : Vec F S16x1024 .f32) (x4 : Vec F S512x16 .f32) (xs0 : Vec F S1024x512 .f32) (xs1 : Vec F S1024x16 .f32) :
    sout0_B_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero (S := S1024x512) hz]
  simp only [View.readAt_eq_ld, harg3.read_unread, harg4.read_unread, harg5.read_unread, harg6.read_unread, harg7.read_unread, harg9.read_unread, harg10.read_unread, View.ld_unit_zero (S := S1024x1024) hz, View.ld_unit_zero (S := S512x1024) hz, View.ld_unit_zero (S := S16x1024) hz, View.ld_unit_zero (S := S1024x512) hz, View.ld_unit_zero (S := S1024x16) hz, View.ld_unit_zero (S := S512x16) hz, View.ld_unit_zero (S := S1x512) hz, View.readCov_unit_zero (S := S1024x512) _ hz, View.readCov_unit_zero (S := S1024x16) _ hz]

/-- A middle contraction step, low-rank accumulator. -/
theorem middle_xa (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S1x512 .f32) (harg5 : arg5.IsWhole) (arg6 : Memref sig .tc .vmem S16x1024 .f32) (harg6 : arg6.IsWhole) (arg7 : Memref sig .tc .vmem S512x16 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x16 .f32) (harg10 : arg10.IsWhole) (hc0 : ¬cond0_0 i) (hc1 : ¬cond0_1 i) (x0 : Vec F S1024x1024 .f32) (x1 : Vec F S512x1024 .i32) (x2 : Vec F S1x512 .f32) (x3 : Vec F S16x1024 .f32) (x4 : Vec F S512x16 .f32) (xs0 : Vec F S1024x512 .f32) (xs1 : Vec F S1024x16 .f32) :
    sout0_B_1 c i arg3 harg3 arg4 harg4 arg5 harg5 arg6 harg6 arg7 harg7 arg8 harg8 arg9 harg9 arg10 harg10 hc0 hc1 x0 x1 x2 x3 x4 xs0 xs1 = k0_pay5 x0 x3 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero (S := S1024x16) hz]
  simp only [View.readAt_eq_ld, harg3.read_unread, harg4.read_unread, harg5.read_unread, harg6.read_unread, harg7.read_unread, harg9.read_unread, harg10.read_unread, View.ld_unit_zero (S := S1024x1024) hz, View.ld_unit_zero (S := S512x1024) hz, View.ld_unit_zero (S := S16x1024) hz, View.ld_unit_zero (S := S1024x512) hz, View.ld_unit_zero (S := S1024x16) hz, View.ld_unit_zero (S := S512x16) hz, View.ld_unit_zero (S := S1x512) hz, View.readCov_unit_zero (S := S1024x512) _ hz, View.readCov_unit_zero (S := S1024x16) _ hz]

/-- The last contraction step: the output tile from the two accumulators after this point's own step. -/
theorem last_out (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S1x512 .f32) (harg5 : arg5.IsWhole) (arg6 : Memref sig .tc .vmem S16x1024 .f32) (harg6 : arg6.IsWhole) (arg7 : Memref sig .tc .vmem S512x16 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x16 .f32) (harg10 : arg10.IsWhole) (hc0 : ¬cond0_0 i) (hc1 : cond0_1 i) (x0 : Vec F S1024x1024 .f32) (x1 : Vec F S512x1024 .i32) (x2 : Vec F S1x512 .f32) (x3 : Vec F S16x1024 .f32) (x4 : Vec F S512x16 .f32) (xs0 : Vec F S1024x512 .f32) (xs1 : Vec F S1024x16 .f32) :
    out0_C_5 c i arg3 harg3 arg4 harg4 arg5 harg5 arg6 harg6 arg7 harg7 arg8 harg8 arg9 harg9 arg10 harg10 hc0 hc1 x0 x1 x2 x3 x4 xs0 xs1 = k0_pay6 x4 (k0_pay5 x0 x3 xs1) (k0_pay4 x0 x1 xs0) x2 := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero (S := S1024x512) hz]
  simp only [View.readAt_eq_ld, harg3.read_unread, harg4.read_unread, harg5.read_unread, harg6.read_unread, harg7.read_unread, harg9.read_unread, harg10.read_unread, View.ld_unit_zero (S := S1024x1024) hz, View.ld_unit_zero (S := S512x1024) hz, View.ld_unit_zero (S := S16x1024) hz, View.ld_unit_zero (S := S1024x512) hz, View.ld_unit_zero (S := S1024x16) hz, View.ld_unit_zero (S := S512x16) hz, View.ld_unit_zero (S := S1x512) hz, View.readCov_unit_zero (S := S1024x512) _ hz, View.readCov_unit_zero (S := S1024x16) _ hz]

end Cert.KernelIdeal.Steps

end
-- ==== Proof.Accumulate.lean ====
/-
  The output tile a last contraction step writes back, as one closed term over the tiles of its four steps.

  Grid points run with the contraction coordinate fastest, so the four points that share a row block and a
  column block are consecutive: a point t with t ≡ 3 (mod 4) is a last step, and t - 3, t - 2, t - 1 are the
  first and the two middle steps of the same output tile. Unfolding the point-by-point contents four times gives
  the output tile as the final combination of the two accumulators, each a four-deep nesting of its step over
  the reset value.
-/
import proofs.«178033_j33809982554585_1_alg».proof.Proof.Steps

noncomputable section

namespace Cert.KernelIdeal.Steps

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-! ## The tiles a point is handed, at their literal types -/

/-- The activations' tile at point `t`. -/
abbrev xT (c : Dev nD) (t : Fin cfg0.N) : Vec F S1024x1024 .f32 := iblk m c 0 t
/-- The integer weights' tile. -/
abbrev wT (c : Dev nD) (t : Fin cfg0.N) : Vec F S512x1024 .i32 := iblk m c 1 t
/-- The weight scales' tile (one row). -/
abbrev sT (c : Dev nD) (t : Fin cfg0.N) : Vec F S1x512 .f32 := iblk m c 2 t
/-- The first low-rank factor's tile. -/
abbrev aT (c : Dev nD) (t : Fin cfg0.N) : Vec F S16x1024 .f32 := iblk m c 3 t
/-- The second low-rank factor's tile. -/
abbrev bT (c : Dev nD) (t : Fin cfg0.N) : Vec F S512x16 .f32 := iblk m c 4 t

/-- The point before `t` (itself at the grid's first point, where nothing reads it). -/
def prev (t : Fin cfg0.N) : Fin cfg0.N := ⟨t.val - 1, Nat.lt_of_le_of_lt (Nat.sub_le _ _) t.isLt⟩

theorem prev_val (t : Fin cfg0.N) : (prev t).val = t.val - 1 := rfl

/-- The two accumulators (main, low-rank) after point `t`. -/
abbrev accs (c : Dev nD) (t : Fin cfg0.N) : Vec F S1024x512 .f32 × Vec F S1024x16 .f32 :=
  (outsAt0 m c t.val t.isLt).2

/-- After a first contraction step both accumulators are one step over the reset value. -/
theorem accs_first (c : Dev nD) (t : Fin cfg0.N) (h0 : t.val % 4 = 0) :
    accs m c t = (k0_pay4 (xT m c t) (wT m c t) (k0_pay1 (F := F)), k0_pay5 (xT m c t) (aT m c t) (k0_pay2 (F := F))) := by
  have h1 : ¬t.val % 4 = 3 := by omega
  show (outsAt0 m c t.val t.isLt).2 = _
  rw [outsAt0_A m c t h0 h1]
  dsimp only
  exact congr (congrArg Prod.mk
      (first_main (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)))
    (first_xa (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t))

/-- After a middle contraction step both accumulators are one step over what the point before left. -/
theorem accs_middle (c : Dev nD) (t : Fin cfg0.N) (h0 : ¬t.val % 4 = 0) (h1 : ¬t.val % 4 = 3) :
    accs m c t = (k0_pay4 (xT m c t) (wT m c t) (accs m c (prev t)).1, k0_pay5 (xT m c t) (aT m c t) (accs m c (prev t)).2) := by
  show (outsAt0 m c t.val t.isLt).2 = _
  rw [outsAt0_B m c t h0 h1]
  dsimp only
  exact congr (congrArg Prod.mk
      (middle_main (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2))
    (middle_xa (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2)

/-- At a last contraction step the output tile combines the accumulators after this point's own step. -/
theorem out_last (c : Dev nD) (t : Fin cfg0.N) (h1 : t.val % 4 = 3) :
    (outsAt0 m c t.val t.isLt).1
      = k0_pay6 (bT m c t) (k0_pay5 (xT m c t) (aT m c t) (accs m c (prev t)).2)
          (k0_pay4 (xT m c t) (wT m c t) (accs m c (prev t)).1) (sT m c t) := by
  have h0 : ¬t.val % 4 = 0 := by omega
  rw [outsAt0_C m c t h0 h1]
  dsimp only
  exact last_out (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2

/-- The main accumulator after the four steps ending at `t`: four steps over the reset value, first step innermost. -/
abbrev mainAfter4 (c : Dev nD) (t : Fin cfg0.N) : Vec F S1024x512 .f32 :=
  k0_pay4 (xT m c t) (wT m c t) (k0_pay4 (xT m c (prev t)) (wT m c (prev t))
    (k0_pay4 (xT m c (prev (prev t))) (wT m c (prev (prev t)))
      (k0_pay4 (xT m c (prev (prev (prev t)))) (wT m c (prev (prev (prev t)))) (k0_pay1 (F := F)))))

/-- The low-rank accumulator after the four steps ending at `t`. -/
abbrev xaAfter4 (c : Dev nD) (t : Fin cfg0.N) : Vec F S1024x16 .f32 :=
  k0_pay5 (xT m c t) (aT m c t) (k0_pay5 (xT m c (prev t)) (aT m c (prev t))
    (k0_pay5 (xT m c (prev (prev t))) (aT m c (prev (prev t)))
      (k0_pay5 (xT m c (prev (prev (prev t)))) (aT m c (prev (prev (prev t)))) (k0_pay2 (F := F)))))

/-- THE OUTPUT TILE of a last contraction step, in closed form. -/
theorem out_last_closed (c : Dev nD) (t : Fin cfg0.N) (h : t.val % 4 = 3) :
    (outsAt0 m c t.val t.isLt).1 = k0_pay6 (bT m c t) (xaAfter4 m c t) (mainAfter4 m c t) (sT m c t) := by
  have e1 : (prev t).val = t.val - 1 := rfl
  have e2 : (prev (prev t)).val = t.val - 1 - 1 := rfl
  have e3 : (prev (prev (prev t))).val = t.val - 1 - 1 - 1 := rfl
  rw [out_last m c t h,
    accs_middle m c (prev t) (by rw [e1]; omega) (by rw [e1]; omega),
    accs_middle m c (prev (prev t)) (by rw [e2]; omega) (by rw [e2]; omega),
    accs_first m c (prev (prev (prev t))) (by rw [e3]; omega)]

end Cert.KernelIdeal.Steps

end
-- ==== Proof.BlockArith.lean ====
/-
  What one grid step computes, read entry by entry over the extended reals.

  At a grid point the body holds a 1024 x 1024 tile `x` of the activations, a 512 x 1024 tile `w` of the integer
  weights, a 16 x 1024 tile `a` of the first low-rank factor, and the two running accumulators. It adds to the main
  accumulator the tile product  x · wᵀ  (entry (p, q): the sum over the 1024 contraction positions e of
  x[p, e] · w[q, e], the integer read exactly as a real) and to the low-rank accumulator  x · aᵀ .  At the last
  contraction step it writes  acc[p, q] · scale[q] + (Σ_r xa[p, r] · b[q, r]) · 1.0 .  Every change of float format
  is the identity at this instance, a transpose only renames the index, and a matrix product into a zero
  accumulator is the plain sum of products.
-/
import proofs.«178033_j33809982554585_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockArith

open Cert.KernelIdeal Cert.KernelIdeal.Gen Idealize.ShloMosaic Idealize.ShloMosaic.ValueIdx

/-! ## The three products' operand indices: rows of the left operand, columns of the right -/

theorem lhs_main_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem lhs_main_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem rhs_main_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem rhs_main_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

theorem lhs_xa_0 (i : S1024x16.Idx) (q : dot_S1024x1024_S1024x16_S1024x16_1_0_0_1_n_n.contr.Idx) :
    (dot_S1024x1024_S1024x16_S1024x16_1_0_0_1_n_n.lhsIdx i q 0).val = (i 0).val := by
  unfold DotDims.lhsIdx
  rw [dif_neg (show ¬(0 : Fin S1024x1024.rank) ∈ dot_S1024x1024_S1024x16_S1024x16_1_0_0_1_n_n.lhsBatch by decide), dif_pos (show (0 : Fin S1024x1024.rank) ∈ dot_S1024x1024_S1024x16_S1024x16_1_0_0_1_n_n.lhsNonContracting by decide)]
  rfl
theorem lhs_xa_1 (i : S1024x16.Idx) (q : dot_S1024x1024_S1024x16_S1024x16_1_0_0_1_n_n.contr.Idx) :
    (dot_S1024x1024_S1024x16_S1024x16_1_0_0_1_n_n.lhsIdx i q 1).val = (q ⟨0, by decide⟩).val :=
  dot_S1024x1024_S1024x16_S1024x16_1_0_0_1_n_n.lhsIdx_val_of_single rfl i q
theorem rhs_xa_0 (i : S1024x16.Idx) (q : dot_S1024x1024_S1024x16_S1024x16_1_0_0_1_n_n.contr.Idx) :
    (dot_S1024x1024_S1024x16_S1024x16_1_0_0_1_n_n.rhsIdx i q 0).val = (q ⟨0, by decide⟩).val :=
  dot_S1024x1024_S1024x16_S1024x16_1_0_0_1_n_n.rhsIdx_val_of_single rfl i q
theorem rhs_xa_1 (i : S1024x16.Idx) (q : dot_S1024x1024_S1024x16_S1024x16_1_0_0_1_n_n.contr.Idx) :
    (dot_S1024x1024_S1024x16_S1024x16_1_0_0_1_n_n.rhsIdx i q 1).val = (i 1).val := by
  unfold DotDims.rhsIdx
  rw [dif_neg (show ¬(1 : Fin S1024x16.rank) ∈ dot_S1024x1024_S1024x16_S1024x16_1_0_0_1_n_n.rhsBatch by decide), dif_pos (show (1 : Fin S1024x16.rank) ∈ dot_S1024x1024_S1024x16_S1024x16_1_0_0_1_n_n.rhsNonContracting by decide)]
  rfl

theorem lhs_lora_0 (i : S1024x512.Idx) (q : dot_S1024x16_S16x512_S1024x512_1_0_0_1_n_n.contr.Idx) :
    (dot_S1024x16_S16x512_S1024x512_1_0_0_1_n_n.lhsIdx i q 0).val = (i 0).val := by
  unfold DotDims.lhsIdx
  rw [dif_neg (show ¬(0 : Fin S1024x16.rank) ∈ dot_S1024x16_S16x512_S1024x512_1_0_0_1_n_n.lhsBatch by decide), dif_pos (show (0 : Fin S1024x16.rank) ∈ dot_S1024x16_S16x512_S1024x512_1_0_0_1_n_n.lhsNonContracting by decide)]
  rfl
theorem lhs_lora_1 (i : S1024x512.Idx) (q : dot_S1024x16_S16x512_S1024x512_1_0_0_1_n_n.contr.Idx) :
    (dot_S1024x16_S16x512_S1024x512_1_0_0_1_n_n.lhsIdx i q 1).val = (q ⟨0, by decide⟩).val :=
  dot_S1024x16_S16x512_S1024x512_1_0_0_1_n_n.lhsIdx_val_of_single rfl i q
theorem rhs_lora_0 (i : S1024x512.Idx) (q : dot_S1024x16_S16x512_S1024x512_1_0_0_1_n_n.contr.Idx) :
    (dot_S1024x16_S16x512_S1024x512_1_0_0_1_n_n.rhsIdx i q 0).val = (q ⟨0, by decide⟩).val :=
  dot_S1024x16_S16x512_S1024x512_1_0_0_1_n_n.rhsIdx_val_of_single rfl i q
theorem rhs_lora_1 (i : S1024x512.Idx) (q : dot_S1024x16_S16x512_S1024x512_1_0_0_1_n_n.contr.Idx) :
    (dot_S1024x16_S16x512_S1024x512_1_0_0_1_n_n.rhsIdx i q 1).val = (i 1).val := by
  unfold DotDims.rhsIdx
  rw [dif_neg (show ¬(1 : Fin S16x512.rank) ∈ dot_S1024x16_S16x512_S1024x512_1_0_0_1_n_n.rhsBatch by decide), dif_pos (show (1 : Fin S16x512.rank) ∈ dot_S1024x16_S16x512_S1024x512_1_0_0_1_n_n.rhsNonContracting by decide)]
  rfl

/-! ## Each product into a zero accumulator is the sum of products over the contraction index -/

/-- (1024 x 1024) · (1024 x 512): entry (p, q) is the sum over e of l[p, e] · r[e, q]. -/
theorem main_apply {φ₁ φ₂ : FTy} (l : FVec Ideal S1024x1024 φ₁) (r : FVec Ideal S1024x512 φ₂) (p : Fin 1024) (q : Fin 512) :
    matmul dot_S1024x1024_S1024x512_S1024x512_1_0_0_1_n_n none l r (constant (F := Ideal) S1024x512 .f32 0x00000000#32) (ix2 p q)
      = ∑ e : Fin 1024, l (ix2 p e) * r (ix2 e q) := by
  simp only [matmul]
  rw [Ideal.matmul_constant_zero_apply, ← Equiv.sum_comp (ValueIdx.contrEquiv1 dot_S1024x1024_S1024x512_S1024x512_1_0_0_1_n_n 1024 rfl rfl).symm]
  refine Finset.sum_congr rfl fun k _ => ?_
  have hk := ValueIdx.contrEquiv1_symm_val dot_S1024x1024_S1024x512_S1024x512_1_0_0_1_n_n 1024 rfl rfl k
  have el : dot_S1024x1024_S1024x512_S1024x512_1_0_0_1_n_n.lhsIdx (ix2 p q) ((ValueIdx.contrEquiv1 dot_S1024x1024_S1024x512_S1024x512_1_0_0_1_n_n 1024 rfl rfl).symm k) = ix2 p k := funext fun a => Fin.ext (by
    match a with
    | ⟨0, _⟩ => exact lhs_main_0 _ _
    | ⟨1, _⟩ => exact (lhs_main_1 _ _).trans hk)
  have er : dot_S1024x1024_S1024x512_S1024x512_1_0_0_1_n_n.rhsIdx (ix2 p q) ((ValueIdx.contrEquiv1 dot_S1024x1024_S1024x512_S1024x512_1_0_0_1_n_n 1024 rfl rfl).symm k) = ix2 k q := funext fun a => Fin.ext (by
    match a with
    | ⟨0, _⟩ => exact (rhs_main_0 _ _).trans hk
    | ⟨1, _⟩ => exact rhs_main_1 _ _)
  rw [el, er]

/-- (1024 x 1024) · (1024 x 16): entry (p, r) is the sum over e of l[p, e] · r[e, r]. -/
theorem xa_apply {φ₁ φ₂ : FTy} (l : FVec Ideal S1024x1024 φ₁) (r : FVec Ideal S1024x16 φ₂) (p : Fin 1024) (q : Fin 16) :
    matmul dot_S1024x1024_S1024x16_S1024x16_1_0_0_1_n_n none l r (constant (F := Ideal) S1024x16 .f32 0x00000000#32) (ix2 p q)
      = ∑ e : Fin 1024, l (ix2 p e) * r (ix2 e q) := by
  simp only [matmul]
  rw [Ideal.matmul_constant_zero_apply, ← Equiv.sum_comp (ValueIdx.contrEquiv1 dot_S1024x1024_S1024x16_S1024x16_1_0_0_1_n_n 1024 rfl rfl).symm]
  refine Finset.sum_congr rfl fun k _ => ?_
  have hk := ValueIdx.contrEquiv1_symm_val dot_S1024x1024_S1024x16_S1024x16_1_0_0_1_n_n 1024 rfl rfl k
  have el : dot_S1024x1024_S1024x16_S1024x16_1_0_0_1_n_n.lhsIdx (ix2 p q) ((ValueIdx.contrEquiv1 dot_S1024x1024_S1024x16_S1024x16_1_0_0_1_n_n 1024 rfl rfl).symm k) = ix2 p k := funext fun a => Fin.ext (by
    match a with
    | ⟨0, _⟩ => exact lhs_xa_0 _ _
    | ⟨1, _⟩ => exact (lhs_xa_1 _ _).trans hk)
  have er : dot_S1024x1024_S1024x16_S1024x16_1_0_0_1_n_n.rhsIdx (ix2 p q) ((ValueIdx.contrEquiv1 dot_S1024x1024_S1024x16_S1024x16_1_0_0_1_n_n 1024 rfl rfl).symm k) = ix2 k q := funext fun a => Fin.ext (by
    match a with
    | ⟨0, _⟩ => exact (rhs_xa_0 _ _).trans hk
    | ⟨1, _⟩ => exact rhs_xa_1 _ _)
  rw [el, er]

/-- (1024 x 16) · (16 x 512): entry (p, q) is the sum over the rank index of l[p, r] · r[r, q]. -/
theorem lora_apply {φ₁ φ₂ : FTy} (l : FVec Ideal S1024x16 φ₁) (r : FVec Ideal S16x512 φ₂) (p : Fin 1024) (q : Fin 512) :
    matmul dot_S1024x16_S16x512_S1024x512_1_0_0_1_n_n none l r (constant (F := Ideal) S1024x512 .f32 0x00000000#32) (ix2 p q)
      = ∑ e : Fin 16, l (ix2 p e) * r (ix2 e q) := by
  simp only [matmul]
  rw [Ideal.matmul_constant_zero_apply, ← Equiv.sum_comp (ValueIdx.contrEquiv1 dot_S1024x16_S16x512_S1024x512_1_0_0_1_n_n 16 rfl rfl).symm]
  refine Finset.sum_congr rfl fun k _ => ?_
  have hk := ValueIdx.contrEquiv1_symm_val dot_S1024x16_S16x512_S1024x512_1_0_0_1_n_n 16 rfl rfl k
  have el : dot_S1024x16_S16x512_S1024x512_1_0_0_1_n_n.lhsIdx (ix2 p q) ((ValueIdx.contrEquiv1 dot_S1024x16_S16x512_S1024x512_1_0_0_1_n_n 16 rfl rfl).symm k) = ix2 p k := funext fun a => Fin.ext (by
    match a with
    | ⟨0, _⟩ => exact lhs_lora_0 _ _
    | ⟨1, _⟩ => exact (lhs_lora_1 _ _).trans hk)
  have er : dot_S1024x16_S16x512_S1024x512_1_0_0_1_n_n.rhsIdx (ix2 p q) ((ValueIdx.contrEquiv1 dot_S1024x16_S16x512_S1024x512_1_0_0_1_n_n 16 rfl rfl).symm k) = ix2 k q := funext fun a => Fin.ext (by
    match a with
    | ⟨0, _⟩ => exact (rhs_lora_0 _ _).trans hk
    | ⟨1, _⟩ => exact rhs_lora_1 _ _)
  rw [el, er]

/-! ## The stored values at an entry -/

/-- The zero tile the first contraction step resets the main accumulator to. -/
theorem zeroMain_apply (j : S1024x512.Idx) : k0_pay1 (F := Ideal) j = 0 := by
  unfold k0_pay1
  simp only [shapeCast_self]
  exact Ideal.ofBits_zero_f32

/-- The zero tile the first contraction step resets the low-rank accumulator to. -/
theorem zeroXa_apply (j : S1024x16.Idx) : k0_pay2 (F := Ideal) j = 0 := by
  unfold k0_pay2
  simp only [shapeCast_self]
  exact Ideal.ofBits_zero_f32

/-- One step of the main accumulation: the accumulator's entry plus the tile product's,
    Σ_e x[p, e] · w[q, e] with the integer weight read as the real it denotes. -/
theorem stepMain_apply (x : FVec Ideal S1024x1024 .f32) (w : IVec S512x1024 32) (acc : FVec Ideal S1024x512 .f32)
    (p : Fin 1024) (q : Fin 512) :
    k0_pay4 (F := Ideal) x w acc (ix2 p q)
      = acc (ix2 p q) + ∑ e : Fin 1024, x (ix2 p e) * (((w (ix2 q e)).toInt : ℝ) : EReal) := by
  unfold k0_pay4 k0_pay3
  simp only [shapeCast_self]
  refine (addf_apply _ _ _).trans ?_
  refine congrArg (acc (ix2 p q) + ·) ?_
  refine (main_apply _ _ p q).trans ?_
  refine Finset.sum_congr rfl fun e _ => ?_
  refine congrArg (x (ix2 p e) * ·) ?_
  refine (transpose_apply [1, 0] _ transposes_S512x1024_p1_0_S1024x512 (ix2 e q) (ix2 q e) (fun b => match b with
    | ⟨0, _⟩ => rfl
    | ⟨1, _⟩ => rfl)).trans ?_
  rfl

/-- One step of the low-rank accumulation: the accumulator's entry plus Σ_e x[p, e] · a[r, e]. -/
theorem stepXa_apply (x : FVec Ideal S1024x1024 .f32) (a : FVec Ideal S16x1024 .f32) (acc : FVec Ideal S1024x16 .f32)
    (p : Fin 1024) (r : Fin 16) :
    k0_pay5 (F := Ideal) x a acc (ix2 p r) = acc (ix2 p r) + ∑ e : Fin 1024, x (ix2 p e) * a (ix2 r e) := by
  unfold k0_pay5 k0_pay3
  simp only [shapeCast_self]
  refine (addf_apply _ _ _).trans ?_
  refine congrArg (acc (ix2 p r) + ·) ?_
  refine (xa_apply _ _ p r).trans ?_
  refine Finset.sum_congr rfl fun e _ => ?_
  refine congrArg (x (ix2 p e) * ·) ?_
  refine (transpose_apply [1, 0] _ transposes_S16x1024_p1_0_S1024x16 (ix2 e r) (ix2 r e) (fun b => match b with
    | ⟨0, _⟩ => rfl
    | ⟨1, _⟩ => rfl)).trans ?_
  rfl

/-- The value written at the last contraction step: main[p, q] · scale[q] + (Σ_r xa[p, r] · b[q, r]) · 1.0. -/
theorem result_apply (b : FVec Ideal S512x16 .f32) (xa : FVec Ideal S1024x16 .f32) (mainAcc : FVec Ideal S1024x512 .f32)
    (scale : FVec Ideal S1x512 .f32) (p : Fin 1024) (q : Fin 512) :
    k0_pay6 (F := Ideal) b xa mainAcc scale (ix2 p q)
      = mainAcc (ix2 p q) * scale (ix2 0 q)
        + (∑ r : Fin 16, xa (ix2 p r) * b (ix2 q r)) * Ideal.ofBits .f32 0x3F800000#32 := by
  unfold k0_pay6
  simp only [shapeCast_self]
  refine (addf_apply _ _ _).trans ?_
  refine congr (congrArg HAdd.hAdd ?_) ?_
  · refine (mulf_apply _ _ _).trans ?_
    refine congrArg (mainAcc (ix2 p q) * ·) ?_
    exact broadcastTo_apply scale broadcasts_S1x512_S1024x512 (ix2 p q) (ix2 0 q) (fun a => match a with
      | ⟨0, _⟩ => rfl
      | ⟨1, _⟩ => rfl)
  · refine (mulf_apply _ _ _).trans ?_
    refine congr (congrArg HMul.hMul ?_) rfl
    refine (lora_apply _ _ p q).trans ?_
    refine Finset.sum_congr rfl fun r _ => ?_
    refine congrArg (xa (ix2 p r) * ·) ?_
    refine (transpose_apply [1, 0] _ transposes_S512x16_p1_0_S16x512 (ix2 r q) (ix2 q r) (fun b => match b with
      | ⟨0, _⟩ => rfl
      | ⟨1, _⟩ => rfl)).trans ?_
    rfl

end Cert.KernelIdeal.BlockArith

end
-- ==== Proof.BlockSum.lean ====
/-
  A sum over the 4096 contraction indices, cut into four consecutive blocks of 1024.

  The kernel walks the contraction axis in four steps of 1024 and adds each step's partial dot product to a
  running accumulator, first to last; the reference contracts all 4096 indices at once. In any commutative
  additive monoid (the extended reals are one: addition there is commutative and associative, infinities
  included) the whole sum is the left-nested sum of the four block sums, so no finiteness is needed.
-/
import Idealize.ShloMosaic.PureOps.Ideal.Laws
import Idealize.ShloMosaic.Lib.ValueIdx

namespace Cert.BlockSum

/-- The `k`-th block's `e`-th contraction index, `1024 * k + e`, as an index below 4096. -/
abbrev at4 (k : Fin 4) (e : Fin 1024) : Fin 4096 := ⟨1024 * k.val + e.val, by have := k.isLt; have := e.isLt; omega⟩

/-- Over natural-number indices: the first `4096` terms are the four runs of `1024` terms, added in order. -/
theorem sum_range_four {M : Type*} [AddCommMonoid M] (f : ℕ → M) :
    ∑ d ∈ Finset.range 4096, f d
      = ((∑ e ∈ Finset.range 1024, f e + ∑ e ∈ Finset.range 1024, f (1024 + e))
          + ∑ e ∈ Finset.range 1024, f (2048 + e)) + ∑ e ∈ Finset.range 1024, f (3072 + e) := by
  rw [show (4096 : ℕ) = 3072 + 1024 from rfl, Finset.sum_range_add,
    show (3072 : ℕ) = 2048 + 1024 from rfl, Finset.sum_range_add,
    show (2048 : ℕ) = 1024 + 1024 from rfl, Finset.sum_range_add]

/-- The whole contraction is the four block contractions added first to last. -/
theorem sum_four_blocks {M : Type*} [AddCommMonoid M] (F : Fin 4096 → M) :
    ∑ d, F d = ((∑ e, F (at4 0 e) + ∑ e, F (at4 1 e)) + ∑ e, F (at4 2 e)) + ∑ e, F (at4 3 e) := by
  let f : ℕ → M := fun d => if h : d < 4096 then F ⟨d, h⟩ else 0
  have hF : ∀ d : Fin 4096, F d = f d.val := fun d => by
    show F d = if h : d.val < 4096 then F ⟨d.val, h⟩ else 0
    rw [dif_pos d.isLt]
  have hb : ∀ (k : Fin 4) (e : Fin 1024), F (at4 k e) = f (1024 * k.val + e.val) := fun k e => hF _
  simp only [hF, hb]
  rw [Fin.sum_univ_eq_sum_range (fun d => f d) 4096,
    Fin.sum_univ_eq_sum_range (fun e => f (1024 * (0 : Fin 4).val + e)) 1024,
    Fin.sum_univ_eq_sum_range (fun e => f (1024 * (1 : Fin 4).val + e)) 1024,
    Fin.sum_univ_eq_sum_range (fun e => f (1024 * (2 : Fin 4).val + e)) 1024,
    Fin.sum_univ_eq_sum_range (fun e => f (1024 * (3 : Fin 4).val + e)) 1024]
  simpa using sum_range_four f

end Cert.BlockSum
-- ==== Proof.TileValue.lean ====
/-
  The output tile of a last contraction step is a tile of ONE function of the five arrays the region reads.

  `padded X W Sc A B r o` is the value the region leaves at row `r`, column `o` of its (column-padded) result:
      (Σ_d X[r, d] · W[o, d]) · Sc[0, o]  +  (Σ_ρ (Σ_d X[r, d] · A[ρ, d]) · B[o, ρ]) · 1.0
  with d over all 4096 contraction positions. If the four steps' tiles are the four consecutive 1024-blocks of
  row `r` of X, of row `o` of W and of the rows of A, and the last step's tiles of B and Sc sit at column `o`,
  then the nested accumulation the kernel performs is this value: the whole contraction is the ordered sum of its
  four blocks, and adding to zero changes nothing.
-/
import proofs.«178033_j33809982554585_1_alg».proof.Proof.BlockArith
import proofs.«178033_j33809982554585_1_alg».proof.Proof.BlockSum

noncomputable section

namespace Cert.KernelIdeal.BlockArith

open Cert.KernelIdeal Cert.KernelIdeal.Gen Idealize.ShloMosaic Idealize.ShloMosaic.ValueIdx Cert.BlockSum

/-- The region's result at row `r`, column `o`, from the arrays it reads. -/
def padded (X : FVec Ideal S8192x4096 .f32) (W : IVec S11264x4096 32) (Sc : FVec Ideal S1x11264 .f32)
    (A : FVec Ideal S16x4096 .f32) (B : FVec Ideal S11264x16 .f32) (r : Fin 8192) (o : Fin 11264) : EReal :=
  (∑ d : Fin 4096, X (ix2 r d) * (((W (ix2 o d)).toInt : ℝ) : EReal)) * Sc (ix2 0 o)
    + (∑ ρ : Fin 16, (∑ d : Fin 4096, X (ix2 r d) * A (ix2 ρ d)) * B (ix2 o ρ)) * Ideal.ofBits .f32 0x3F800000#32

/-- The nested accumulation over four steps' tiles, then the final combination, is `padded` at the tile's place. -/
theorem tile_eq (X : FVec Ideal S8192x4096 .f32) (W : IVec S11264x4096 32) (Sc : FVec Ideal S1x11264 .f32)
    (A : FVec Ideal S16x4096 .f32) (B : FVec Ideal S11264x16 .f32) (r : Fin 8192) (o : Fin 11264)
    (x0 x1 x2 x3 : FVec Ideal S1024x1024 .f32) (w0 w1 w2 w3 : IVec S512x1024 32) (a0 a1 a2 a3 : FVec Ideal S16x1024 .f32)
    (b : FVec Ideal S512x16 .f32) (s : FVec Ideal S1x512 .f32) (p : Fin 1024) (q : Fin 512)
    (hx0 : ∀ e, x0 (ix2 p e) = X (ix2 r (at4 0 e))) (hx1 : ∀ e, x1 (ix2 p e) = X (ix2 r (at4 1 e)))
    (hx2 : ∀ e, x2 (ix2 p e) = X (ix2 r (at4 2 e))) (hx3 : ∀ e, x3 (ix2 p e) = X (ix2 r (at4 3 e)))
    (hw0 : ∀ e, w0 (ix2 q e) = W (ix2 o (at4 0 e))) (hw1 : ∀ e, w1 (ix2 q e) = W (ix2 o (at4 1 e)))
    (hw2 : ∀ e, w2 (ix2 q e) = W (ix2 o (at4 2 e))) (hw3 : ∀ e, w3 (ix2 q e) = W (ix2 o (at4 3 e)))
    (ha0 : ∀ ρ e, a0 (ix2 ρ e) = A (ix2 ρ (at4 0 e))) (ha1 : ∀ ρ e, a1 (ix2 ρ e) = A (ix2 ρ (at4 1 e)))
    (ha2 : ∀ ρ e, a2 (ix2 ρ e) = A (ix2 ρ (at4 2 e))) (ha3 : ∀ ρ e, a3 (ix2 ρ e) = A (ix2 ρ (at4 3 e)))
    (hb : ∀ ρ, b (ix2 q ρ) = B (ix2 o ρ)) (hs : s (ix2 0 q) = Sc (ix2 0 o)) :
    k0_pay6 (F := Ideal) b
        (k0_pay5 (F := Ideal) x3 a3 (k0_pay5 (F := Ideal) x2 a2 (k0_pay5 (F := Ideal) x1 a1 (k0_pay5 (F := Ideal) x0 a0 (k0_pay2 (F := Ideal))))))
        (k0_pay4 (F := Ideal) x3 w3 (k0_pay4 (F := Ideal) x2 w2 (k0_pay4 (F := Ideal) x1 w1 (k0_pay4 (F := Ideal) x0 w0 (k0_pay1 (F := Ideal)))))) s (ix2 p q)
      = padded X W Sc A B r o := by
  rw [result_apply]
  simp only [stepMain_apply, stepXa_apply, zeroMain_apply, zeroXa_apply, zero_add,
    hx0, hx1, hx2, hx3, hw0, hw1, hw2, hw3, ha0, ha1, ha2, ha3, hb, hs]
  unfold padded
  simp only [sum_four_blocks]

end Cert.KernelIdeal.BlockArith

end
-- ==== Proof.WholeArray.lean ====
/-
  The region's result array, whole: every entry is `padded` of the five arrays the region reads.

  Grid point t = 88·i + 4·j + k handles row block i (1024 rows), column block j (512 columns) and contraction
  block k (1024 positions). Its tiles are read off the arrays at block index × block size + the coordinate
  inside the block. The points with k = 3 write their output tile back, to rows 1024·i + p and columns 512·j + q;
  these tiles cover the 8192 x 11264 result exactly, so the array ends holding `padded` everywhere.
-/
import proofs.«178033_j33809982554585_1_alg».proof.Proof.Accumulate
import proofs.«178033_j33809982554585_1_alg».proof.Proof.TileValue

noncomputable section

namespace Cert.KernelIdeal.Whole

open Cert.KernelIdeal Cert.KernelIdeal.Gen Cert.KernelIdeal.Steps Cert.KernelIdeal.BlockArith Cert.BlockSum
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays as the region finds them, at their literal types -/

/-- The activations, flattened to 8192 rows. -/
abbrev Xin (c : Dev nD) : FVec Ideal S8192x4096 .f32 := V m c main_v0
/-- The integer weights, padded to 11264 rows. -/
abbrev Win (c : Dev nD) : IVec S11264x4096 32 := V m c main_v1
/-- The weight scales, padded to 11264 and laid out as one row. -/
abbrev Sin (c : Dev nD) : FVec Ideal S1x11264 .f32 := V m c main_v3
/-- The first low-rank factor. -/
abbrev Ain (c : Dev nD) : FVec Ideal S16x4096 .f32 := V m c main_arg3
/-- The second low-rank factor, padded to 11264 rows. -/
abbrev Bin (c : Dev nD) : FVec Ideal S11264x16 .f32 := V m c main_v4

/-- The block index maps over the grid, decided once: point t is row block t / 88, column block (t / 4) mod 22,
    contraction block t mod 4, and each window follows the coordinates its index map names. -/
theorem idx_facts : ∀ t : Fin cfg0.N,
    win0_0.index t (0 : Fin 2) = t.val / 88 ∧ win0_0.index t (1 : Fin 2) = t.val % 4
    ∧ win0_1.index t (0 : Fin 2) = t.val / 4 % 22 ∧ win0_1.index t (1 : Fin 2) = t.val % 4
    ∧ win0_2.index t (0 : Fin 2) = 0 ∧ win0_2.index t (1 : Fin 2) = t.val / 4 % 22
    ∧ win0_3.index t (0 : Fin 2) = 0 ∧ win0_3.index t (1 : Fin 2) = t.val % 4
    ∧ win0_4.index t (0 : Fin 2) = t.val / 4 % 22 ∧ win0_4.index t (1 : Fin 2) = 0
    ∧ win0_5.index t (0 : Fin 2) = t.val / 88 ∧ win0_5.index t (1 : Fin 2) = t.val / 4 % 22 :=
  (by decide +kernel : ∀ t : Fin grid0.N, _)

/-! ## Each tile entry is an array entry -/

theorem x_tile (c : Dev nD) (t : Fin cfg0.N) (p e : Fin 1024) (r : Fin 8192) (d : Fin 4096)
    (hr : r.val = t.val / 88 * 1024 + p.val) (hd : d.val = t.val % 4 * 1024 + e.val) :
    xT m c t (ix2 p e) = Xin m c (ix2 r d) := by
  obtain ⟨e0, e1, -⟩ := idx_facts t
  show V m c main_v0 (((cfg0.win 0).blk t).view.emb (ix2 p e)) = V m c main_v0 (ix2 r d)
  refine congrArg (V m c main_v0) (funext fun a => Fin.ext ?_)
  match a with
  | ⟨0, _⟩ => show win0_0.index t (0 : Fin 2) * 1024 + 1 * p.val = r.val; omega
  | ⟨1, _⟩ => show win0_0.index t (1 : Fin 2) * 1024 + 1 * e.val = d.val; omega

theorem w_tile (c : Dev nD) (t : Fin cfg0.N) (q : Fin 512) (e : Fin 1024) (o : Fin 11264) (d : Fin 4096)
    (ho : o.val = t.val / 4 % 22 * 512 + q.val) (hd : d.val = t.val % 4 * 1024 + e.val) :
    wT m c t (ix2 q e) = Win m c (ix2 o d) := by
  obtain ⟨-, -, e0, e1, -⟩ := idx_facts t
  show V m c main_v1 (((cfg0.win 1).blk t).view.emb (ix2 q e)) = V m c main_v1 (ix2 o d)
  refine congrArg (V m c main_v1) (funext fun a => Fin.ext ?_)
  match a with
  | ⟨0, _⟩ => show win0_1.index t (0 : Fin 2) * 512 + 1 * q.val = o.val; omega
  | ⟨1, _⟩ => show win0_1.index t (1 : Fin 2) * 1024 + 1 * e.val = d.val; omega

theorem s_tile (c : Dev nD) (t : Fin cfg0.N) (q : Fin 512) (o : Fin 11264)
    (ho : o.val = t.val / 4 % 22 * 512 + q.val) :
    sT m c t (ix2 0 q) = Sin m c (ix2 0 o) := by
  obtain ⟨-, -, -, -, e0, e1, -⟩ := idx_facts t
  show V m c main_v3 (((cfg0.win 2).blk t).view.emb (ix2 0 q)) = V m c main_v3 (ix2 0 o)
  refine congrArg (V m c main_v3) (funext fun a => Fin.ext ?_)
  match a with
  | ⟨0, _⟩ => show win0_2.index t (0 : Fin 2) * 1 + 1 * 0 = 0; omega
  | ⟨1, _⟩ => show win0_2.index t (1 : Fin 2) * 512 + 1 * q.val = o.val; omega

theorem a_tile (c : Dev nD) (t : Fin cfg0.N) (r : Fin 16) (e : Fin 1024) (d : Fin 4096)
    (hd : d.val = t.val % 4 * 1024 + e.val) :
    aT m c t (ix2 r e) = Ain m c (ix2 r d) := by
  obtain ⟨-, -, -, -, -, -, e0, e1, -⟩ := idx_facts t
  show V m c main_arg3 (((cfg0.win 3).blk t).view.emb (ix2 r e)) = V m c main_arg3 (ix2 r d)
  refine congrArg (V m c main_arg3) (funext fun a => Fin.ext ?_)
  match a with
  | ⟨0, _⟩ => show win0_3.index t (0 : Fin 2) * 16 + 1 * r.val = r.val; omega
  | ⟨1, _⟩ => show win0_3.index t (1 : Fin 2) * 1024 + 1 * e.val = d.val; omega

theorem b_tile (c : Dev nD) (t : Fin cfg0.N) (q : Fin 512) (r : Fin 16) (o : Fin 11264)
    (ho : o.val = t.val / 4 % 22 * 512 + q.val) :
    bT m c t (ix2 q r) = Bin m c (ix2 o r) := by
  obtain ⟨-, -, -, -, -, -, -, -, e0, e1, -⟩ := idx_facts t
  show V m c main_v4 (((cfg0.win 4).blk t).view.emb (ix2 q r)) = V m c main_v4 (ix2 o r)
  refine congrArg (V m c main_v4) (funext fun a => Fin.ext ?_)
  match a with
  | ⟨0, _⟩ => show win0_4.index t (0 : Fin 2) * 512 + 1 * q.val = o.val; omega
  | ⟨1, _⟩ => show win0_4.index t (1 : Fin 2) * 16 + 1 * r.val = r.val; omega

/-! ## The result array -/

/-- What the region's result array ends holding. -/
abbrev result5 (c : Dev nD) : Buf (Elt Ideal) ((c : Thread nD τ).loc main_v5) :=
  fun j => padded (Xin m c) (Win m c) (Sin m c) (Ain m c) (Bin m c) ⟨(j 0).val, (j 0).isLt⟩ ⟨(j 1).val, (j 1).isLt⟩

/-- WHAT A LAST CONTRACTION STEP WRITES BACK is its tile of `result5`. -/
theorem flushed_eq (c : Dev nD) (t : Fin cfg0.N) (hf : (cfg0.win 5).flush t = true) :
    (dats m 0 c).flushed 5 t = ((cfg0.win 5).blk t).view.read (Elt Ideal) (result5 m c) := by
  have h3 : t.val % 4 = 3 := (flush0_5 t).mp hf
  have hN : t.val < 704 := lt_of_lt_of_eq t.isLt (show cfg0.N = 704 from N_0)
  show (cfg0.win 5).cut (grid0.coords t) ((dats m 0 c).after 5 t) = _
  rw [after0_5, out_last_closed m c t h3]
  funext j
  obtain ⟨p, q, rfl⟩ : ∃ (p : Fin 1024) (q : Fin 512), j = ix2 p q := ⟨j 0, j 1, eq_ix2 j⟩
  obtain ⟨-, -, -, -, -, -, -, -, -, -, e50, e51⟩ := idx_facts t
  have hp : p.val < 1024 := p.isLt
  have hq : q.val < 512 := q.isLt
  have hr : t.val / 88 * 1024 + p.val < 8192 := by omega
  have ho : t.val / 4 % 22 * 512 + q.val < 11264 := by omega
  have e1 : (prev t).val = t.val - 1 := rfl
  have e2 : (prev (prev t)).val = t.val - 1 - 1 := rfl
  have e3 : (prev (prev (prev t))).val = t.val - 1 - 1 - 1 := rfl
  show k0_pay6 (F := Ideal) (bT m c t) (xaAfter4 m c t) (mainAfter4 m c t) (sT m c t) (ix2 p q)
    = padded (Xin m c) (Win m c) (Sin m c) (Ain m c) (Bin m c)
        ⟨((cfg0.win 5).blk t).view.emb (ix2 p q) 0, _⟩ ⟨((cfg0.win 5).blk t).view.emb (ix2 p q) 1, _⟩
  have hrow : (⟨((cfg0.win 5).blk t).view.emb (ix2 p q) 0, (((cfg0.win 5).blk t).view.emb (ix2 p q) 0).isLt⟩ : Fin 8192)
      = ⟨t.val / 88 * 1024 + p.val, hr⟩ := Fin.ext (by
    show win0_5.index t (0 : Fin 2) * 1024 + 1 * p.val = t.val / 88 * 1024 + p.val; omega)
  have hcol : (⟨((cfg0.win 5).blk t).view.emb (ix2 p q) 1, (((cfg0.win 5).blk t).view.emb (ix2 p q) 1).isLt⟩ : Fin 11264)
      = ⟨t.val / 4 % 22 * 512 + q.val, ho⟩ := Fin.ext (by
    show win0_5.index t (1 : Fin 2) * 512 + 1 * q.val = t.val / 4 % 22 * 512 + q.val; omega)
  rw [hrow, hcol]
  exact tile_eq (Xin m c) (Win m c) (Sin m c) (Ain m c) (Bin m c) ⟨t.val / 88 * 1024 + p.val, hr⟩ ⟨t.val / 4 % 22 * 512 + q.val, ho⟩
    (xT m c (prev (prev (prev t)))) (xT m c (prev (prev t))) (xT m c (prev t)) (xT m c t)
    (wT m c (prev (prev (prev t)))) (wT m c (prev (prev t))) (wT m c (prev t)) (wT m c t)
    (aT m c (prev (prev (prev t)))) (aT m c (prev (prev t))) (aT m c (prev t)) (aT m c t)
    (bT m c t) (sT m c t) p q
    (fun e => x_tile m c _ p e _ _ (by rw [e3]; show t.val / 88 * 1024 + p.val = _; omega) (by rw [e3]; show 1024 * 0 + e.val = _; omega))
    (fun e => x_tile m c _ p e _ _ (by rw [e2]; show t.val / 88 * 1024 + p.val = _; omega) (by rw [e2]; show 1024 * 1 + e.val = _; omega))
    (fun e => x_tile m c _ p e _ _ (by rw [e1]; show t.val / 88 * 1024 + p.val = _; omega) (by rw [e1]; show 1024 * 2 + e.val = _; omega))
    (fun e => x_tile m c _ p e _ _ (by show t.val / 88 * 1024 + p.val = _; omega) (by show 1024 * 3 + e.val = _; omega))
    (fun e => w_tile m c _ q e _ _ (by rw [e3]; show t.val / 4 % 22 * 512 + q.val = _; omega) (by rw [e3]; show 1024 * 0 + e.val = _; omega))
    (fun e => w_tile m c _ q e _ _ (by rw [e2]; show t.val / 4 % 22 * 512 + q.val = _; omega) (by rw [e2]; show 1024 * 1 + e.val = _; omega))
    (fun e => w_tile m c _ q e _ _ (by rw [e1]; show t.val / 4 % 22 * 512 + q.val = _; omega) (by rw [e1]; show 1024 * 2 + e.val = _; omega))
    (fun e => w_tile m c _ q e _ _ (by show t.val / 4 % 22 * 512 + q.val = _; omega) (by show 1024 * 3 + e.val = _; omega))
    (fun r e => a_tile m c _ r e _ (by rw [e3]; show 1024 * 0 + e.val = _; omega))
    (fun r e => a_tile m c _ r e _ (by rw [e2]; show 1024 * 1 + e.val = _; omega))
    (fun r e => a_tile m c _ r e _ (by rw [e1]; show 1024 * 2 + e.val = _; omega))
    (fun r e => a_tile m c _ r e _ (by show 1024 * 3 + e.val = _; omega))
    (fun r => b_tile m c t q r _ (by show t.val / 4 % 22 * 512 + q.val = _; omega))
    (s_tile m c t q _ (by show t.val / 4 % 22 * 512 + q.val = _; omega))

/-- An index of the result array is in point `t`'s tile iff each coordinate is in the tile's range on its axis. -/
theorem mem_tile (t : Fin cfg0.N) (i : S8192x11264.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v5).slice (win0_5.rect t)).set ↔ _
  rw [View.set_slice_whole, Rect.mem_set_unit]
  exact Iff.rfl

/-- Every entry of the result array lies in the tile of some last contraction step. -/
theorem covered (i : S8192x11264.Idx) :
    ∃ t : Fin cfg0.N, (cfg0.win 5).flush t = true ∧ i ∈ ((cfg0.win 5).blk t).view.set := by
  have h0 : (i 0).val < 8192 := (i 0).isLt
  have h1 : (i 1).val < 11264 := (i 1).isLt
  have hN : cfg0.N = 704 := N_0
  have ht : (i 0).val / 1024 * 88 + (i 1).val / 512 * 4 + 3 < cfg0.N := by rw [hN]; omega
  obtain ⟨-, -, -, -, -, -, -, -, -, -, e50, e51⟩ := idx_facts ⟨_, ht⟩
  refine ⟨⟨_, ht⟩, (flush0_5 _).mpr (by show ((i 0).val / 1024 * 88 + (i 1).val / 512 * 4 + 3) % 4 = 3; omega), ?_⟩
  rw [mem_tile]
  intro a
  match a with
  | ⟨0, _⟩ =>
    show win0_5.index ⟨_, ht⟩ (0 : Fin 2) * 1024 ≤ (i 0).val ∧ (i 0).val < win0_5.index ⟨_, ht⟩ (0 : Fin 2) * 1024 + 1024
    rw [e50]; show ((i 0).val / 1024 * 88 + (i 1).val / 512 * 4 + 3) / 88 * 1024 ≤ (i 0).val ∧ (i 0).val < ((i 0).val / 1024 * 88 + (i 1).val / 512 * 4 + 3) / 88 * 1024 + 1024
    omega
  | ⟨1, _⟩ =>
    show win0_5.index ⟨_, ht⟩ (1 : Fin 2) * 512 ≤ (i 1).val ∧ (i 1).val < win0_5.index ⟨_, ht⟩ (1 : Fin 2) * 512 + 512
    rw [e51]; show ((i 0).val / 1024 * 88 + (i 1).val / 512 * 4 + 3) / 4 % 22 * 512 ≤ (i 1).val ∧ (i 1).val < ((i 0).val / 1024 * 88 + (i 1).val / 512 * 4 + 3) / 4 % 22 * 512 + 512
    omega

/-- THE RESULT ARRAY after the run. -/
theorem final5 (c : Dev nD) : (dats m 0 c).arrAt 5 cfg0.N = result5 m c :=
  (dats m 0 c).arrAt_eq_of_cover 5 (result5 m c) (flushed_eq m c) covered

end Cert.KernelIdeal.Whole

end
-- ==== Proof.HostSide.lean ====
/-
  The plain-jax glue around the region, read entry by entry.

  Before the region the activations are flattened from [4, 2048, 4096] to [8192, 4096] (row 2048·b + s is
  (b, s)); the integer weights, the weight scales and the second low-rank factor are padded with 256 extra rows
  (entries) so that the output width 11008 becomes 11264 = 22 · 512; the padded scales are laid out as one row.
  After the region the 256 padding columns are sliced off and the rows are unflattened to [4, 2048, 11008].
  Inside the original extents a padded array is the original array, so the padding never reaches a kept entry.
-/
import proofs.«178033_j33809982554585_1_alg».proof.Proof.Gen.KernelIdeal.Frame
import Idealize.ShloMosaic.Lib.Pipeline.Value
import Idealize.ShloMosaic.Lib.ValueIdx
import Idealize.ShloMosaic.Lib.KernelVsHost
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-! ## The arrays the region finds, as the glue's terms of the arguments -/

theorem flat_x (c : Dev nD) : (V m c main_v0 : Vec F S8192x4096 .f32)
    = shapeCast S8192x4096 (m ((c : Thread nD τ).loc main_arg0)) shapeCasts_S4x2048x4096_S8192x4096 := by
  dsimp only [V, V0]
  simp only [hostOps0, hostOps0_1, hostOps0_2, hostOps0_3, hostOps0_4, hostOps0_5, List.flatten_cons, List.flatten_nil, List.append_nil, List.cons_append, List.nil_append]
  after_results
  rfl

theorem padded_w (c : Dev nD) : (V m c main_v1 : Vec F S11264x4096 .i32)
    = pad S11264x4096 ![0, 0] ![256, 0] ![0, 0] (m ((c : Thread nD τ).loc main_arg1)) (constantI S_ 32 0#32) pads_S11008x4096_S11264x4096_02560_000 h_S_ := by
  dsimp only [V, V0]
  simp only [hostOps0, hostOps0_1, hostOps0_2, hostOps0_3, hostOps0_4, hostOps0_5, List.flatten_cons, List.flatten_nil, List.append_nil, List.cons_append, List.nil_append]
  after_results
  rfl

theorem padded_scale (c : Dev nD) : (V m c main_v3 : Vec F S1x11264 .f32)
    = shapeCast S1x11264 (pad S11264 ![0] ![256] ![0] (m ((c : Thread nD τ).loc main_arg2)) (sitofp (F := F) .f32 (constantI S_ 32 0#32)) pads_S11008_S11264_02560 h_S_) shapeCasts_S11264_S1x11264 := by
  dsimp only [V, V0]
  simp only [hostOps0, hostOps0_1, hostOps0_2, hostOps0_3, hostOps0_4, hostOps0_5, List.flatten_cons, List.flatten_nil, List.append_nil, List.cons_append, List.nil_append]
  after_results
  rfl

theorem padded_b (c : Dev nD) : (V m c main_v4 : Vec F S11264x16 .f32)
    = pad S11264x16 ![0, 0] ![256, 0] ![0, 0] (m ((c : Thread nD τ).loc main_arg4)) (sitofp (F := F) .f32 (constantI S_ 32 0#32)) pads_S11008x16_S11264x16_02560_000 h_S_ := by
  dsimp only [V, V0]
  simp only [hostOps0, hostOps0_1, hostOps0_2, hostOps0_3, hostOps0_4, hostOps0_5, List.flatten_cons, List.flatten_nil, List.append_nil, List.cons_append, List.nil_append]
  after_results
  rfl

/-- The glue after the region: drop the padding columns, unflatten the rows. -/
def unpad (g : Vec F S8192x11264 .f32) : Vec F S4x2048x11008 .f32 :=
  shapeCast S4x2048x11008 (extractStridedSlice S8192x11008 ![0, 0] g slices_S8192x11264_S8192x11008_0_0) shapeCasts_S8192x11008_S4x2048x11008

/-- @main's result is the glue's tail of the region's result array. -/
theorem result_tail (dats : (p : Fin 1) → (c : Dev nD) → Pipeline.Dat τ (Elt F) Unit ℕ (UR sig nD τ) ℕ (cfgs p) c) (c : Dev nD) :
    Pipeline.afterTail₀ cfgs dats 0 (V0 m) [hostOps1] c main_v7 = unpad ((dats 0 c).arrAt 5 cfg0.N) := by
  have e : Pipeline.withArrays (cfgs 0).spec c (V0 m c) (fun w => (dats 0 c).arrAt w (cfgs 0).N) (Proc.devRef .tc main_v5)
      = (dats 0 c).arrAt 5 cfg0.N := Pipeline.withArrays_arr spec0 launch0.win.arr_inj c _ _ 5
  unfold Pipeline.afterTail₀ unpad
  show StableHlo.after hostOps1 _ (Proc.devRef .tc main_v7) = _
  after_results
  rw [e]
  rfl

/-! ## Read at an entry -/

/-- Flattened row 2048·b + s is (b, s). -/
theorem flat_apply (x : Vec F S4x2048x4096 .f32) (b : Fin 4) (s : Fin 2048) (d : Fin 4096) (r : Fin 8192)
    (hr : r.val = 2048 * b.val + s.val) :
    shapeCast S8192x4096 x shapeCasts_S4x2048x4096_S8192x4096 (ix2 r d) = x (ix3 b s d) :=
  shapeCast_apply x _ (ix2 r d) (ix3 b s d) (by
    rw [Shape.rowMajor_val_three, Shape.rowMajor_val_two]
    show (b.val * 2048 + s.val) * 4096 + d.val = r.val * 4096 + d.val
    rw [hr]; ring)

/-- A row of the padded weights below 11008 is the weights' row. -/
theorem padded_w_apply (w : Vec F S11008x4096 .i32) (v : Vec F S_ .i32) (o : Fin 11264) (o' : Fin 11008) (d : Fin 4096)
    (ho : o.val = o'.val) :
    pad S11264x4096 ![0, 0] ![256, 0] ![0, 0] w v pads_S11008x4096_S11264x4096_02560_000 h_S_ (ix2 o d) = w (ix2 o' d) :=
  pad_apply_of_inside _ _ _ w v _ _ (ix2 o d) (ix2 o' d) (fun a => match a with
    | ⟨0, _⟩ => by show o.val = 0 + o'.val * (0 + 1); omega
    | ⟨1, _⟩ => by show d.val = 0 + d.val * (0 + 1); omega)

/-- An entry of the padded scales' row below 11008 is the scale. -/
theorem padded_scale_apply (s : Vec F S11008 .f32) (v : Vec F S_ .f32) (o : Fin 11264) (o' : Fin 11008)
    (ho : o.val = o'.val) :
    shapeCast S1x11264 (pad S11264 ![0] ![256] ![0] s v pads_S11008_S11264_02560 h_S_) shapeCasts_S11264_S1x11264 (ix2 0 o)
      = s (ix1 o') := by
  refine (shapeCast_apply _ _ (ix2 0 o) (ix1 o) (by
    rw [Shape.rowMajor_val_one, Shape.rowMajor_val_two]
    show o.val = 0 * 11264 + o.val; omega)).trans ?_
  exact pad_apply_of_inside _ _ _ s v _ _ (ix1 o) (ix1 o') (fun a => match a with
    | ⟨0, _⟩ => by show o.val = 0 + o'.val * (0 + 1); omega)

/-- A row of the padded second factor below 11008 is the factor's row. -/
theorem padded_b_apply (b : Vec F S11008x16 .f32) (v : Vec F S_ .f32) (o : Fin 11264) (o' : Fin 11008) (r : Fin 16)
    (ho : o.val = o'.val) :
    pad S11264x16 ![0, 0] ![256, 0] ![0, 0] b v pads_S11008x16_S11264x16_02560_000 h_S_ (ix2 o r) = b (ix2 o' r) :=
  pad_apply_of_inside _ _ _ b v _ _ (ix2 o r) (ix2 o' r) (fun a => match a with
    | ⟨0, _⟩ => by show o.val = 0 + o'.val * (0 + 1); omega
    | ⟨1, _⟩ => by show r.val = 0 + r.val * (0 + 1); omega)

/-- The result at (b, s, o) is the region's result at row 2048·b + s, column o. -/
theorem unpad_apply (g : Vec F S8192x11264 .f32) (b : Fin 4) (s : Fin 2048) (o' : Fin 11008) (r : Fin 8192) (o : Fin 11264)
    (hr : r.val = 2048 * b.val + s.val) (ho : o.val = o'.val) :
    unpad g (ix3 b s o') = g (ix2 r o) := by
  unfold unpad
  refine (shapeCast_apply _ _ (ix3 b s o') (ix2 r o') (by
    rw [Shape.rowMajor_val_three, Shape.rowMajor_val_two]
    show r.val * 11008 + o'.val = (b.val * 2048 + s.val) * 11008 + o'.val
    rw [hr]; ring)).trans ?_
  exact extractStridedSlice_apply _ g _ (ix2 r o') (ix2 r o) (fun a => match a with
    | ⟨0, _⟩ => by show r.val = 0 + r.val; omega
    | ⟨1, _⟩ => by show o.val = 0 + o'.val; omega)

end Cert.KernelIdeal.HostSide

end
-- ==== Proof.Spec.lean ====
/-
  The function both programs compute, entry by entry over the extended reals.

  For activations x[b, s, d], integer weights w[o, d], weight scales scale[o] and low-rank factors a[ρ, d], b[o, ρ]:

      out[b, s, o] = (Σ_d x[b, s, d] · w[o, d]) · scale[o]  +  (Σ_ρ (Σ_d x[b, s, d] · a[ρ, d]) · b[o, ρ]) · 1.0

  with d over the 4096 input features and ρ over the rank 16; an integer weight is read as the real number it is,
  and 1.0 (alpha / rank = 16 / 16) is kept as the float word both programs multiply by.
-/
import Idealize.ShloMosaic.PureOps.Ideal.Laws
import Idealize.ShloMosaic.Lib.ValueIdx

noncomputable section

namespace Cert.Spec

open Idealize.ShloMosaic Idealize.ShloMosaic.ValueIdx

/-- One entry of the weight-only-quantized linear layer with its low-rank correction. -/
def entry (x : FVec Ideal ⟨3, ![4, 2048, 4096]⟩ .f32) (w : IVec ⟨2, ![11008, 4096]⟩ 32) (scale : FVec Ideal ⟨1, ![11008]⟩ .f32)
    (a : FVec Ideal ⟨2, ![16, 4096]⟩ .f32) (b : FVec Ideal ⟨2, ![11008, 16]⟩ .f32) (bb : Fin 4) (s : Fin 2048) (o : Fin 11008) : EReal :=
  (∑ d : Fin 4096, x (ix3 bb s d) * (((w (ix2 o d)).toInt : ℝ) : EReal)) * scale (ix1 o)
    + (∑ ρ : Fin 16, (∑ d : Fin 4096, x (ix3 bb s d) * a (ix2 ρ d)) * b (ix2 o ρ)) * Ideal.ofBits .f32 0x3F800000#32

/-- The whole result. -/
def out (x : FVec Ideal ⟨3, ![4, 2048, 4096]⟩ .f32) (w : IVec ⟨2, ![11008, 4096]⟩ 32) (scale : FVec Ideal ⟨1, ![11008]⟩ .f32)
    (a : FVec Ideal ⟨2, ![16, 4096]⟩ .f32) (b : FVec Ideal ⟨2, ![11008, 16]⟩ .f32) : FVec Ideal ⟨3, ![4, 2048, 11008]⟩ .f32 :=
  fun i => entry x w scale a b ⟨(i 0).val, (i 0).isLt⟩ ⟨(i 1).val, (i 1).isLt⟩ ⟨(i 2).val, (i 2).isLt⟩

theorem out_apply (x : FVec Ideal ⟨3, ![4, 2048, 4096]⟩ .f32) (w : IVec ⟨2, ![11008, 4096]⟩ 32) (scale : FVec Ideal ⟨1, ![11008]⟩ .f32)
    (a : FVec Ideal ⟨2, ![16, 4096]⟩ .f32) (b : FVec Ideal ⟨2, ![11008, 16]⟩ .f32) (bb : Fin 4) (s : Fin 2048) (o : Fin 11008) :
    out x w scale a b (ix3 bb s o) = entry x w scale a b bb s o := rfl

end Cert.Spec

end
-- ==== Proof.KernelValue.lean ====
/-
  The idealized kernel's run, with its result named: the quantized linear layer with its low-rank correction.

  The region leaves `padded` of the arrays it finds at every entry of its 8192 x 11264 result; the glue keeps row
  2048·b + s and column o < 11008 for the entry (b, s, o). There the flattened activations are the activations,
  and the padded weights, scales and second factor are the unpadded ones, so the kept entry is the
  specification's entry.
-/
import proofs.«178033_j33809982554585_1_alg».proof.Proof.WholeArray
import proofs.«178033_j33809982554585_1_alg».proof.Proof.HostSide
import proofs.«178033_j33809982554585_1_alg».proof.Proof.Spec

noncomputable section

namespace Cert.KernelIdeal.Whole

open Cert.KernelIdeal Cert.KernelIdeal.Gen Cert.KernelIdeal.Steps Cert.KernelIdeal.BlockArith Cert.KernelIdeal.HostSide
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The kept part of the region's result is the specification, entry by entry. -/
theorem unpad_result (c : Dev nD) :
    unpad (F := Ideal) (result5 m c)
      = Cert.Spec.out (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  obtain ⟨b, s, o, rfl⟩ : ∃ (b : Fin 4) (s : Fin 2048) (o : Fin 11008), i = ix3 b s o := ⟨i 0, i 1, i 2, eq_ix3 i⟩
  have hb : b.val < 4 := b.isLt
  have hs : s.val < 2048 := s.isLt
  have ho : o.val < 11008 := o.isLt
  have hr : 2048 * b.val + s.val < 8192 := by omega
  have ho' : o.val < 11264 := by omega
  rw [Cert.Spec.out_apply]
  refine (unpad_apply (F := Ideal) (result5 m c) b s o ⟨2048 * b.val + s.val, hr⟩ ⟨o.val, ho'⟩ rfl rfl).trans ?_
  show padded (Xin m c) (Win m c) (Sin m c) (Ain m c) (Bin m c) ⟨2048 * b.val + s.val, hr⟩ ⟨o.val, ho'⟩ = _
  have hX : ∀ d, Xin m c (ix2 (⟨2048 * b.val + s.val, hr⟩ : Fin 8192) d) = m ((c : Thread nD τ).loc main_arg0) (ix3 b s d) := fun d => by
    show (V m c main_v0 : Vec Ideal S8192x4096 .f32) _ = _
    rw [flat_x m c]
    exact flat_apply _ b s d _ rfl
  have hW : ∀ d, Win m c (ix2 (⟨o.val, ho'⟩ : Fin 11264) d) = m ((c : Thread nD τ).loc main_arg1) (ix2 o d) := fun d => by
    show (V m c main_v1 : Vec Ideal S11264x4096 .i32) _ = _
    rw [padded_w m c]
    exact padded_w_apply _ _ _ o d rfl
  have hS : Sin m c (ix2 0 (⟨o.val, ho'⟩ : Fin 11264)) = m ((c : Thread nD τ).loc main_arg2) (ix1 o) := by
    show (V m c main_v3 : Vec Ideal S1x11264 .f32) _ = _
    rw [padded_scale m c]
    exact padded_scale_apply _ _ _ o rfl
  have hA : ∀ r d, Ain m c (ix2 r d) = m ((c : Thread nD τ).loc main_arg3) (ix2 r d) := fun r d => by
    show (V m c main_arg3 : Vec Ideal S16x4096 .f32) _ = _
    rw [V_main_arg3 m c]
  have hB : ∀ r, Bin m c (ix2 (⟨o.val, ho'⟩ : Fin 11264) r) = m ((c : Thread nD τ).loc main_arg4) (ix2 o r) := fun r => by
    show (V m c main_v4 : Vec Ideal S11264x16 .f32) _ = _
    rw [padded_b m c]
    exact padded_b_apply _ _ _ o r rfl
  unfold padded Cert.Spec.entry
  simp only [hX, hW, hS, hA, hB]

/-- THE RUN of the idealized kernel: @main's result is the specification of the arguments, which end unchanged. -/
theorem run : θ_run defs (onTc (τ := τ) (main (F := Ideal))) ⟨m, fun _ => 0, ρ⟩ fun r => ∀ c : Dev nD,
      r.2.mem ((c.tc : Thread nD τ).loc main_v7)
        = Cert.Spec.out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v7 (Pipeline.mem_restRefs_of main_v7 (by decide) (by decide))).trans
        ((result_tail m (dats m) c).trans ((congrArg (unpad (F := Ideal)) (final5 m c)).trans (unpad_result m c))),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c))⟩)
    (run_main m ρ)

end Cert.KernelIdeal.Whole

end
-- ==== Proof.RefSide.lean ====
/-
  The idealized reference, read entry by entry: it is the specification.

  jnp's three einsums are host dot products, each the plain sum of products over its contracted axis; the scale is
  broadcast along the last axis; the integer weights are converted to floats exactly. Reading the generated stage
  lemmas outermost first and naming the operand indices gives the specification's entry, with the same grouping
  ((main · scale) + (low-rank · 1.0)) and the same float word for 1.0.
-/
import proofs.«178033_j33809982554585_1_alg».proof.Defs
import proofs.«178033_j33809982554585_1_alg».proof.Proof.Gen.ReferenceIdeal.Read
import proofs.«178033_j33809982554585_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The reference's last stage is the specification of its five arguments. -/
theorem stage_eq_spec (x0 : FVec Ideal S4x2048x4096 .f32) (x1 : IVec S11008x4096 32) (x2 : FVec Ideal S11008 .f32)
    (x3 : FVec Ideal S16x4096 .f32) (x4 : FVec Ideal S11008x16 .f32) :
    val_main_v9 (F := Ideal) x0 x1 x2 x3 x4 = Cert.Spec.out x0 x1 x2 x3 x4 := by
  funext i
  obtain ⟨b, s, o, rfl⟩ : ∃ (b : Fin 4) (s : Fin 2048) (o : Fin 11008), i = ix3 b s o := ⟨i 0, i 1, i 2, eq_ix3 i⟩
  have l1 : ∀ k, lidx_main_v1 (ix3 b s o) k = ix3 b s k := fun k => funext fun a => match a with
    | ⟨0, _⟩ => rfl
    | ⟨1, _⟩ => rfl
    | ⟨2, _⟩ => rfl
  have r1 : ∀ k, ridx_main_v1 (ix3 b s o) k = ix2 o k := fun k => funext fun a => match a with
    | ⟨0, _⟩ => rfl
    | ⟨1, _⟩ => rfl
  have i3 : idx_main_v2 (idx_main_v3 (ix3 b s o)) = ix1 o := funext fun a => match a with
    | ⟨0, _⟩ => rfl
  have l6 : ∀ k, lidx_main_v6 (ix3 b s o) k = ix3 b s k := fun k => funext fun a => match a with
    | ⟨0, _⟩ => rfl
    | ⟨1, _⟩ => rfl
    | ⟨2, _⟩ => rfl
  have r6 : ∀ k, ridx_main_v6 (ix3 b s o) k = ix2 o k := fun k => funext fun a => match a with
    | ⟨0, _⟩ => rfl
    | ⟨1, _⟩ => rfl
  have l5 : ∀ (ρ : Fin 16) k, lidx_main_v5 (ix3 b s ρ) k = ix3 b s k := fun ρ k => funext fun a => match a with
    | ⟨0, _⟩ => rfl
    | ⟨1, _⟩ => rfl
    | ⟨2, _⟩ => rfl
  have r5 : ∀ (ρ : Fin 16) k, ridx_main_v5 (ix3 b s ρ) k = ix2 ρ k := fun ρ k => funext fun a => match a with
    | ⟨0, _⟩ => rfl
    | ⟨1, _⟩ => rfl
  rw [Cert.Spec.out_apply, val_main_v9_apply, val_main_v4_apply, val_main_v8_apply, val_main_v1_apply, val_main_v3_apply,
    val_main_v2_apply, val_main_v6_apply, val_main_v7_apply, val_main_cst_apply]
  simp only [l1, r1, i3, l6, r6, val_main_v5_apply, l5, r5, val_main_v0_apply]
  rfl

end Cert.ReferenceIdeal.RefValue

end
-- ==== Proof.lean ====
/-
  An int8-weight linear layer with a rank-16 low-rank correction, as a Pallas kernel tiled (1024, 512, 1024)
  over (rows, output features, input features), against its jnp reference:

      out[b, s, o] = (Σ_d x[b, s, d] · w[o, d]) · scale[o]  +  (Σ_ρ (Σ_d x[b, s, d] · a[ρ, d]) · b[o, ρ]) · (16 / 16).

  The kernel flattens (b, s) to 8192 rows, pads the 11008 output features to 11264 = 22 · 512, and walks the 4096
  input features in four blocks of 1024, keeping two running accumulators (the main product and x · aᵀ) in
  scratch memory across the four grid points of one output tile; at the fourth it writes
  main · scale + (xa · bᵀ) · 1.0, and the glue slices the padding off and restores the leading axes.

  Over the extended reals the casts to bf16 are the identity and each tile product into a zero accumulator is a
  plain sum of products, so the accumulated value is the ordered sum of the four 1024-blocks of the contraction,
  which is the whole contraction (addition is commutative and associative there, infinities included: no
  finiteness is used). The padding rows are never read at a kept column. So both programs end at `Cert.Spec.out`
  of the same arguments.

  The three frames are the generated ones (the reference's is its run with the result dropped); the ideal pass
  rewrote nothing, so the preservation claim is trivial.
-/
import proofs.«178033_j33809982554585_1_alg».proof.Defs
import proofs.«178033_j33809982554585_1_alg».proof.Proof.Gen.Kernel
import proofs.«178033_j33809982554585_1_alg».proof.Proof.Gen.Kernel.Skeleton
import proofs.«178033_j33809982554585_1_alg».proof.Proof.Gen.Kernel.Launch
import proofs.«178033_j33809982554585_1_alg».proof.Proof.Gen.Kernel.Points
import proofs.«178033_j33809982554585_1_alg».proof.Proof.Gen.Kernel.Frame
import proofs.«178033_j33809982554585_1_alg».proof.Proof.Gen.KernelIdeal
import proofs.«178033_j33809982554585_1_alg».proof.Proof.Gen.KernelIdeal.Skeleton
import proofs.«178033_j33809982554585_1_alg».proof.Proof.Gen.KernelIdeal.Launch
import proofs.«178033_j33809982554585_1_alg».proof.Proof.Gen.KernelIdeal.Points
import proofs.«178033_j33809982554585_1_alg».proof.Proof.Gen.KernelIdeal.Frame
import proofs.«178033_j33809982554585_1_alg».proof.Proof.Gen.ReferenceIdeal
import proofs.«178033_j33809982554585_1_alg».proof.Proof.Gen.ReferenceIdeal.Run
import proofs.«178033_j33809982554585_1_alg».proof.Proof.Gen.Pre_finite_inputs
import proofs.«178033_j33809982554585_1_alg».proof.Proof.KernelValue
import proofs.«178033_j33809982554585_1_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments, the idealized kernel and the idealized reference both end at
    the specification of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v9_eq _ _ _ _ _).trans (Cert.ReferenceIdeal.RefValue.stage_eq_spec _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
